-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S64x256x56x56 .f32) (main_arg1 : FVec F S16x256 .f32) (main_arg2 : FVec F S16 .f32) (main_arg3 : FVec F S256x16 .f32) (main_arg4 : FVec F S256 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_v13 main_v16
-- ==== Kernel.lean ====
abbrev S64x256x56x56 : Shape := ⟨4, ![64, 256, 56, 56]⟩
abbrev S16x256 : Shape := ⟨2, ![16, 256]⟩
abbrev S16 : Shape := ⟨1, ![16]⟩
abbrev S256x16 : Shape := ⟨2, ![256, 16]⟩
abbrev S256 : Shape := ⟨1, ![256]⟩
abbrev S1x16 : Shape := ⟨2, ![1, 16]⟩
abbrev S1x256 : Shape := ⟨2, ![1, 256]⟩
abbrev S4x256x56x56 : Shape := ⟨4, ![4, 256, 56, 56]⟩
abbrev S4x256 : Shape := ⟨2, ![4, 256]⟩
abbrev S4x16 : Shape := ⟨2, ![4, 16]⟩
abbrev S4x256x1x1 : Shape := ⟨4, ![4, 256, 1, 1]⟩

abbrev nBuf : Space → Nat
  | .hbm => 8
  | .vmem => 8
  | .smem => 0
  | _ => 0

abbrev bufTy : (tb : Table) → Fin (tcTables nBuf tb) → BufTy
  | .hbm, ⟨0, _⟩ => ⟨S64x256x56x56, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S1x16, .f32⟩
  | .hbm, ⟨6, _⟩ => ⟨S1x256, .f32⟩
  | .hbm, ⟨7, _⟩ => ⟨S64x256x56x56, .f32⟩
  | .local _ .vmem, ⟨0, _⟩ => ⟨S4x256x56x56, .f32⟩
  | .local _ .vmem, ⟨1, _⟩ => ⟨S4x256x56x56, .f32⟩
  | .local _ .vmem, ⟨2, _⟩ => ⟨S16x256, .f32⟩
  | .local _ .vmem, ⟨3, _⟩ => ⟨S1x16, .f32⟩
  | .local _ .vmem, ⟨4, _⟩ => ⟨S256x16, .f32⟩
  | .local _ .vmem, ⟨5, _⟩ => ⟨S1x256, .f32⟩
  | .local _ .vmem, ⟨6, _⟩ => ⟨S4x256x56x56, .f32⟩
  | .local _ .vmem, ⟨7, _⟩ => ⟨S4x256x56x56, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x256x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x256x56x56 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16_S1x16 : S16.ShapeCasts S1x16
  shapeCasts_S256_S1x256 : S256.ShapeCasts S1x256
  inb_S4x256x56x56_S4x256x56x56_0_0_0_0 : ∀ a, (![0, 0, 0, 0] : Fin 4 → Nat) a + S4x256x56x56.size a ≤ S4x256x56x56.size a
  h_S4x256x56x56 : 0 < S4x256x56x56.numel
  reduces_S4x256x56x56_S4x256 : S4x256x56x56.Reduces [2, 3] S4x256
  inb_S16x256_S16x256_0_0 : ∀ a, (![0, 0] : Fin 2 → Nat) a + S16x256.size a ≤ S16x256.size a
  h_S16x256 : 0 < S16x256.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S256x16_S256x16_0_0 : ∀ a, (![0, 0] : Fin 2 → Nat) a + S256x16.size a ≤ S256x16.size a
  h_S256x16 : 0 < S256x16.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  transposes_S16x256_p1_0_S256x16 : S16x256.Transposes [1, 0] S256x16
  broadcasts_S1x16_S4x16 : S1x16.Broadcasts S4x16
  transposes_S256x16_p1_0_S16x256 : S256x16.Transposes [1, 0] S16x256
  broadcasts_S1x256_S4x256 : S1x256.Broadcasts S4x256
  shapeCasts_S4x256_S4x256x1x1 : S4x256.ShapeCasts S4x256x1x1
  broadcasts_S4x256x1x1_S4x256x56x56 : S4x256x1x1.Broadcasts S4x256x56x56
  dot_S4x256_S256x16_S4x16_1_0_0_1_n_n_wf : DotDims.WF S4x256 S256x16 S4x16 [1] [0] [0] [1] [] []
  dot_S4x16_S16x256_S4x256_1_0_0_1_n_n_wf : DotDims.WF S4x16 S16x256 S4x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x56x56.size a ≤ S64x256x56x56.size a
  hwx0_0 : ∀ i : grid0.Coords, EltTy.bits .f32 = 32 ∨ (Rect.block (s := S64x256x56x56) S4x256x56x56.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S256x16.size a
  hwx0_3 : ∀ i : grid0.Coords, EltTy.bits .f32 = 32 ∨ (Rect.block (s := S256x16) S256x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x256x56x56.size a ≤ S64x256x56x56.size a
  hwx0_5 : ∀ i : grid0.Coords, EltTy.bits .f32 = 32 ∨ (Rect.block (s := S64x256x56x56) S4x256x56x56.size (cc0_transform_5 i) (hinb0_5 i)).WholeWords (EltTy.packing .f32)

variable [Facts₀]

def dot_S4x256_S256x16_S4x16_1_0_0_1_n_n : DotDims S4x256 S256x16 S4x16 where
  lhsContracting := [1]
  rhsContracting := [0]
  lhsNonContracting := [0]
  rhsNonContracting := [1]
  lhsBatch := []
  rhsBatch := []
  wf := dot_S4x256_S256x16_S4x16_1_0_0_1_n_n_wf
def dot_S4x16_S16x256_S4x256_1_0_0_1_n_n : DotDims S4x16 S16x256 S4x256 where
  lhsContracting := [1]
  rhsContracting := [0]
  lhsNonContracting := [0]
  rhsNonContracting := [1]
  lhsBatch := []
  rhsBatch := []
  wf := dot_S4x16_S16x256_S4x256_1_0_0_1_n_n_wf

abbrev win0_0 : Pipeline.Window sig grid0 :=
  Pipeline.Window.ofSpec (Memref.whole main_arg0) S4x256x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S4x256x56x56.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩
abbrev S64x256 : Shape := ⟨2, ![64, 256]⟩
abbrev S64x16 : Shape := ⟨2, ![64, 16]⟩
abbrev S1x16 : Shape := ⟨2, ![1, 16]⟩
abbrev S1x256 : Shape := ⟨2, ![1, 256]⟩
abbrev S64x256x1x1 : Shape := ⟨4, ![64, 256, 1, 1]⟩

abbrev nBuf : Space → Nat
  | .hbm => 34
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S_, .f32⟩
  | .hbm, ⟨6, _⟩ => ⟨S64x256, .f32⟩
  | .hbm, ⟨7, _⟩ => ⟨S_, .f32⟩
  | .hbm, ⟨8, _⟩ => ⟨S64x256, .f32⟩
  | .hbm, ⟨9, _⟩ => ⟨S64x256, .f32⟩
  | .hbm, ⟨10, _⟩ => ⟨S256x16, .f32⟩
  | .hbm, ⟨11, _⟩ => ⟨S64x16, .f32⟩
  | .hbm, ⟨12, _⟩ => ⟨S1x16, .f32⟩
  | .hbm, ⟨13, _⟩ => ⟨S64x16, .f32⟩
  | .hbm, ⟨14, _⟩ => ⟨S64x16, .f32⟩
  | .hbm, ⟨15, _⟩ => ⟨S_, .f32⟩
  | .hbm, ⟨16, _⟩ => ⟨S64x16, .f32⟩
  | .hbm, ⟨17, _⟩ => ⟨S64x16, .f32⟩
  | .hbm, ⟨18, _⟩ => ⟨S16x256, .f32⟩
  | .hbm, ⟨19, _⟩ => ⟨S64x256, .f32⟩
  | .hbm, ⟨20, _⟩ => ⟨S1x256, .f32⟩
  | .hbm, ⟨21, _⟩ => ⟨S64x256, .f32⟩
  | .hbm, ⟨22, _⟩ => ⟨S64x256, .f32⟩
  | .hbm, ⟨23, _⟩ => ⟨S64x256, .f32⟩
  | .hbm, ⟨24, _⟩ => ⟨S64x256, .f32⟩
  | .hbm, ⟨25, _⟩ => ⟨S_, .f32⟩
  | .hbm, ⟨26, _⟩ => ⟨S64x256, .f32⟩
  | .hbm, ⟨27, _⟩ => ⟨S64x256, .f32⟩
  | .hbm, ⟨28, _⟩ => ⟨S_, .f32⟩
  | .hbm, ⟨29, _⟩ => ⟨S64x256, .f32⟩
  | .hbm, ⟨30, _⟩ => ⟨S64x256, .f32⟩
  | .hbm, ⟨31, _⟩ => ⟨S64x256x1x1, .f32⟩
  | .hbm, ⟨32, _⟩ => ⟨S64x256x56x56, .f32⟩
  | .hbm, ⟨33, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  reducesTo_S64x256x56x56_S64x256_d2_3 : S64x256x56x56.ReducesTo [2, 3] S64x256
  h_S_ : 0 < S_.numel
  bcast_S_S64x256 : S_.BroadcastsInDim S64x256 (![] : Fin 0 → Fin S64x256.rank)
  transposes_S16x256_S256x16_1_0 : S16x256.Transposes [1, 0] S256x16
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  transposes_S256x16_S16x256_1_0 : S256x16.Transposes [1, 0] S16x256
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S64x256_S64x256x1x1_0_1 : S64x256.BroadcastsInDim S64x256x1x1 (![0, 1] : Fin 2 → Fin S64x256x1x1.rank)
  bcast_S64x256x1x1_S64x256x56x56_0_1_2_3 : S64x256x1x1.BroadcastsInDim S64x256x56x56 (![0, 1, 2, 3] : Fin 4 → Fin S64x256x56x56.rank)
  dot_S64x256_S256x16_S64x16_1_0_0_1_n_n_wf : DotDims.WF S64x256 S256x16 S64x16 [1] [0] [0] [1] [] []
  dot_S64x16_S16x256_S64x256_1_0_0_1_n_n_wf : DotDims.WF S64x16 S16x256 S64x256 [1] [0] [0] [1] [] []

variable [Facts₀]

def dot_S64x256_S256x16_S64x16_1_0_0_1_n_n : DotDims S64x256 S256x16 S64x16 where
  lhsContracting := [1]
  rhsContracting := [0]
  lhsNonContracting := [0]
  rhsNonContracting := [1]
  lhsBatch := []
  rhsBatch := []
  wf := dot_S64x256_S256x16_S64x16_1_0_0_1_n_n_wf
def dot_S64x16_S16x256_S64x256_1_0_0_1_n_n : DotDims S64x16 S16x256 S64x256 where
  lhsContracting := [1]
  rhsContracting := [0]
  lhsNonContracting := [0]
  rhsNonContracting := [1]
  lhsBatch := []
  rhsBatch := []
  wf := dot_S64x16_S16x256_S64x256_1_0_0_1_n_n_wf

class Facts : Prop extends Facts₀ where

variable [Facts]
-- ==== Proof.Spec.lean ====
/-
  The channel gate of a squeeze-and-excitation block, as a function of the arrays, entry by entry, on the extended reals.

  For a batch of `N` images `x : [N, 256, 56, 56]` and the weights `w1 : [16, 256]`, `b1 : 16`, `w2 : [256, 16]`, `b2 : 256`:
    pooled n k  = (Σ_{h, w} x[n, k, h, w]) / 3136                  the mean of channel k over its 56 · 56 positions
    hidden n j  = max (Σ_k pooled n k · w1[j, k] + b1[j]) 0        the first layer, rectified
    gate n c    = logistic (Σ_j hidden n j · w2[c, j] + b2[c])     the second layer, through the logistic function
    rescaled    = x[n, c, h, w] · gate n c                          every channel scaled by its gate
  The two literals are kept as their words: `0x45440000` is 3136 and `0x00000000` is 0; both programs carry the same words.

  The gate of image `n` reads only image `n` of the batch (`gate_congr`): this is why a program that works on four
  images at a time computes the same gates as one that works on all sixty-four at once.
-/
import Idealize.ShloMosaic.PureOps.Ideal
import Idealize.ShloMosaic.Lib.ValueIdx

noncomputable section

open scoped BigOperators

namespace Cert.SqueezeExcite

open Idealize.ShloMosaic Idealize.ShloMosaic.ValueIdx

variable {N : Nat}

/-- The mean of channel `k` of image `n` over its 56 · 56 positions. -/
def pooled (x : FVec Ideal ⟨4, ![N, 256, 56, 56]⟩ .f32) (n : Fin N) (k : Fin 256) : EReal :=
  Ideal.div (∑ h : Fin 56, ∑ w : Fin 56, x (ix4 n k h w)) (Ideal.ofBits .f32 0x45440000#32)

/-- The first layer: the pooled channels against row `j` of `w1`, plus `b1 j`, rectified. -/
def hidden (x : FVec Ideal ⟨4, ![N, 256, 56, 56]⟩ .f32) (w1 : FVec Ideal ⟨2, ![16, 256]⟩ .f32) (b1 : Fin 16 → EReal)
    (n : Fin N) (j : Fin 16) : EReal :=
  max ((∑ k : Fin 256, pooled x n k * w1 (ix2 j k)) + b1 j) (Ideal.ofBits .f32 0x00000000#32)

/-- The second layer: the hidden units against row `c` of `w2`, plus `b2 c`, through the logistic function. -/
def gate (x : FVec Ideal ⟨4, ![N, 256, 56, 56]⟩ .f32) (w1 : FVec Ideal ⟨2, ![16, 256]⟩ .f32) (b1 : Fin 16 → EReal)
    (w2 : FVec Ideal ⟨2, ![256, 16]⟩ .f32) (b2 : Fin 256 → EReal) (n : Fin N) (c : Fin 256) : EReal :=
  Ideal.logistic ((∑ j : Fin 16, hidden x w1 b1 n j * w2 (ix2 c j)) + b2 c)

/-- Every entry of the batch scaled by the gate of its image and channel. -/
def rescaled (x : FVec Ideal ⟨4, ![N, 256, 56, 56]⟩ .f32) (w1 : FVec Ideal ⟨2, ![16, 256]⟩ .f32) (b1 : Fin 16 → EReal)
    (w2 : FVec Ideal ⟨2, ![256, 16]⟩ .f32) (b2 : Fin 256 → EReal) : FVec Ideal ⟨4, ![N, 256, 56, 56]⟩ .f32 :=
  fun i => x i * gate x w1 b1 w2 b2 (i 0) (i 1)

/-- At `(n, c, h, w)` the rescaled batch is the entry times the gate of `(n, c)`. -/
theorem rescaled_apply (x : FVec Ideal ⟨4, ![N, 256, 56, 56]⟩ .f32) (w1 : FVec Ideal ⟨2, ![16, 256]⟩ .f32) (b1 : Fin 16 → EReal)
    (w2 : FVec Ideal ⟨2, ![256, 16]⟩ .f32) (b2 : Fin 256 → EReal) (n : Fin N) (c : Fin 256) (h w : Fin 56) :
    rescaled x w1 b1 w2 b2 (ix4 n c h w) = x (ix4 n c h w) * gate x w1 b1 w2 b2 n c := rfl

/-- The gate of an image depends on that image alone: two batches (of any two sizes) that agree on image `n` of the
    one and image `n'` of the other give those two images the same gates. -/
theorem gate_congr {N' : Nat} (x : FVec Ideal ⟨4, ![N, 256, 56, 56]⟩ .f32) (x' : FVec Ideal ⟨4, ![N', 256, 56, 56]⟩ .f32)
    (w1 : FVec Ideal ⟨2, ![16, 256]⟩ .f32) (b1 : Fin 16 → EReal) (w2 : FVec Ideal ⟨2, ![256, 16]⟩ .f32) (b2 : Fin 256 → EReal)
    (n : Fin N) (n' : Fin N') (hrow : ∀ k h w, x (ix4 n k h w) = x' (ix4 n' k h w)) (c : Fin 256) :
    gate x w1 b1 w2 b2 n c = gate x' w1 b1 w2 b2 n' c := by
  unfold gate hidden pooled
  simp only [hrow]

end Cert.SqueezeExcite

end
-- ==== Proof.LibReduceLast2.lean ====
/-
  Sums over the two trailing axes of a rank-4 array, read in coordinates.

  A reduction of an array `[A, B, C, D]` over its axes 2 and 3 keeps the index `(a, b)`; the source indices that
  reduce to `(a, b)` are exactly the `(a, b, c, d)`, so the reduced entry is the double sum over `c` and `d`.
  Stated for the sum over the reducing indices of any additive commutative monoid, then for the two operations that
  are such sums on the extended reals: a vector reduction with `add`, and the host's reduce with an `add` body
  (which adds its initial value in front).
-/
import Idealize.ShloMosaic.PureOps.Ideal
import Idealize.ShloMosaic.PureOps.Ideal.Laws
import Idealize.ShloMosaic.Lib.ValueIdx

noncomputable section

open scoped BigOperators

namespace Idealize.ShloMosaic.ReduceLast2

open Idealize.ShloMosaic Idealize.ShloMosaic.ValueIdx

variable {A B C D : Nat}

/-- Dropping the two trailing coordinates of `(a, b, c, d)` leaves `(a, b)`. -/
theorem drop_ix4 (h : (⟨4, ![A, B, C, D]⟩ : Shape).Reduces [2, 3] ⟨2, ![A, B]⟩) (a : Fin A) (b : Fin B) (c : Fin C)
    (d : Fin D) : h.drop (ix4 a b c d) = ix2 a b := by
  funext k
  refine Fin.ext ?_
  match k with
  | ⟨0, _⟩ => rfl
  | ⟨1, _⟩ => rfl

/-- The indices that reduce to `(a, b)` are the `(a, b, c, d)`: the sum over them is the double sum over `c`, `d`. -/
theorem sum_filter_drop {M : Type*} [AddCommMonoid M] (h : (⟨4, ![A, B, C, D]⟩ : Shape).Reduces [2, 3] ⟨2, ![A, B]⟩)
    (x : (⟨4, ![A, B, C, D]⟩ : Shape).Idx → M) (a : Fin A) (b : Fin B) :
    ∑ i ∈ Finset.univ.filter (fun i => h.drop i = ix2 a b), x i = ∑ c : Fin C, ∑ d : Fin D, x (ix4 a b c d) := by
  refine Eq.trans ?_ (Fintype.sum_prod_type' (fun c d => x (ix4 a b c d)))
  -- an index reducing to (a, b) has its first two coordinates a and b
  have hfix : ∀ i : (⟨4, ![A, B, C, D]⟩ : Shape).Idx, h.drop i = ix2 a b → ix4 a b (i 2) (i 3) = i := by
    intro i hi
    have ha : (i 0).val = a.val := congrArg (fun f => (f 0).val) hi
    have hb : (i 1).val = b.val := congrArg (fun f => (f 1).val) hi
    funext k
    refine Fin.ext ?_
    match k with
    | ⟨0, _⟩ => exact ha.symm
    | ⟨1, _⟩ => exact hb.symm
    | ⟨2, _⟩ => rfl
    | ⟨3, _⟩ => rfl
  refine Finset.sum_nbij' (fun i => (i 2, i 3)) (fun p => ix4 a b p.1 p.2) ?_ ?_ ?_ ?_ ?_
  · intro i _; exact Finset.mem_univ _
  · intro p _; exact Finset.mem_filter.mpr ⟨Finset.mem_univ _, drop_ix4 h a b p.1 p.2⟩
  · intro i hi; exact hfix i (Finset.mem_filter.mp hi).2
  · intro p _; rfl
  · intro i hi; exact congrArg x (hfix i (Finset.mem_filter.mp hi).2).symm

/-- A vector reduction with `add` over the two trailing axes, at the exact values: the entry `(a, b)` is the double sum
    of the source over `c` and `d`. -/
theorem multiReduction_add_apply {φ : FTy} (src : FVec Ideal ⟨4, ![A, B, C, D]⟩ φ) (acc : BitVec φ.bits)
    (h : (⟨4, ![A, B, C, D]⟩ : Shape).Reduces [2, 3] ⟨2, ![A, B]⟩) (hφ : FKind.Formats φ)
    (hacc : acc = FKind.add.neutral φ hφ) (a : Fin A) (b : Fin B) :
    multiReduction .add [2, 3] ⟨2, ![A, B]⟩ src acc h hφ hacc (ix2 a b) = ∑ c : Fin C, ∑ d : Fin D, src (ix4 a b c d) :=
  sum_filter_drop h src a b

/-- The host's reduce with an `add` body over the two trailing axes, at the exact values: the initial value plus the
    double sum of the operand over `c` and `d`. -/
theorem hostReduceAdd_apply (h' : (⟨4, ![A, B, C, D]⟩ : Shape).ReducesTo [2, 3] ⟨2, ![A, B]⟩)
    (h : (⟨4, ![A, B, C, D]⟩ : Shape).Reduces [2, 3] ⟨2, ![A, B]⟩) (x : (⟨4, ![A, B, C, D]⟩ : Shape).Idx → EReal)
    (init : EReal) (a : Fin A) (b : Fin B) :
    Ideal.hostReduceAdd h' x init (ix2 a b) = init + ∑ c : Fin C, ∑ d : Fin D, x (ix4 a b c d) := by
  unfold Ideal.hostReduceAdd
  rw [Shape.ReducesTo.drop_eq_drop h' h, sum_filter_drop h x a b]

end Idealize.ShloMosaic.ReduceLast2

end
-- ==== Proof.KernelPayload.lean ====
/-
  The kernel body's stored value, entry by entry, is the rescaled batch of Proof/Spec.lean at the body's four images.

  The body sums each channel of its four images over the 56 · 56 positions and divides by 3136 (`pooled`); multiplies the
  4 × 256 means by the transposed first weights on the matrix unit, adds the bias row and rectifies (`hidden`); multiplies
  by the transposed second weights, adds the second bias row and applies the logistic function (`gate`); and scales its
  block by the gates broadcast over the positions. A matrix product into the zero accumulator is the sum over the
  contracted coordinate; a transposed matrix read at `(k, j)` is the matrix at `(j, k)`; a `[1, n]` row broadcast over the
  four images reads the row.
-/
import proofs.«104781_j37125697306889_1_alg».proof.Proof.Gen.KernelIdeal.Skeleton
import proofs.«104781_j37125697306889_1_alg».proof.Proof.Spec
import proofs.«104781_j37125697306889_1_alg».proof.Proof.LibReduceLast2
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.TcCoe
open Idealize.ShloMosaic.ValueIdx Cert.SqueezeExcite

/-! ## The two matrix products -/

theorem lhs_d1_0 (i : S4x16.Idx) (q : dot_S4x256_S256x16_S4x16_1_0_0_1_n_n.contr.Idx) :
    (dot_S4x256_S256x16_S4x16_1_0_0_1_n_n.lhsIdx i q 0).val = (i 0).val := by
  unfold DotDims.lhsIdx
  rw [dif_neg (show ¬(0 : Fin S4x256.rank) ∈ dot_S4x256_S256x16_S4x16_1_0_0_1_n_n.lhsBatch by decide), dif_pos (show (0 : Fin S4x256.rank) ∈ dot_S4x256_S256x16_S4x16_1_0_0_1_n_n.lhsNonContracting by decide)]
  rfl
theorem lhs_d1_1 (i : S4x16.Idx) (q : dot_S4x256_S256x16_S4x16_1_0_0_1_n_n.contr.Idx) :
    (dot_S4x256_S256x16_S4x16_1_0_0_1_n_n.lhsIdx i q 1).val = (q ⟨0, by decide⟩).val :=
  dot_S4x256_S256x16_S4x16_1_0_0_1_n_n.lhsIdx_val_of_single rfl i q
theorem rhs_d1_0 (i : S4x16.Idx) (q : dot_S4x256_S256x16_S4x16_1_0_0_1_n_n.contr.Idx) :
    (dot_S4x256_S256x16_S4x16_1_0_0_1_n_n.rhsIdx i q 0).val = (q ⟨0, by decide⟩).val :=
  dot_S4x256_S256x16_S4x16_1_0_0_1_n_n.rhsIdx_val_of_single rfl i q
theorem rhs_d1_1 (i : S4x16.Idx) (q : dot_S4x256_S256x16_S4x16_1_0_0_1_n_n.contr.Idx) :
    (dot_S4x256_S256x16_S4x16_1_0_0_1_n_n.rhsIdx i q 1).val = (i 1).val := by
  unfold DotDims.rhsIdx
  rw [dif_neg (show ¬(1 : Fin S256x16.rank) ∈ dot_S4x256_S256x16_S4x16_1_0_0_1_n_n.rhsBatch by decide), dif_pos (show (1 : Fin S256x16.rank) ∈ dot_S4x256_S256x16_S4x16_1_0_0_1_n_n.rhsNonContracting by decide)]
  rfl

/-- The 4 × 256 by 256 × 16 product into the zero accumulator, entry by entry: the sum over the contracted coordinate. -/
theorem matmul_d1_apply (l : FVec Ideal S4x256 .f32) (r : FVec Ideal S256x16 .f32) (p : Fin 4) (q : Fin 16) :
    matmul dot_S4x256_S256x16_S4x16_1_0_0_1_n_n none l r (constant (F := Ideal) S4x16 .f32 0x00000000#32) (ix2 p q)
      = ∑ k : Fin 256, l (ix2 p k) * r (ix2 k q) := by
  simp only [matmul]
  rw [Ideal.matmul_constant_zero_apply, ← Equiv.sum_comp (ValueIdx.contrEquiv1 dot_S4x256_S256x16_S4x16_1_0_0_1_n_n 256 rfl rfl).symm]
  refine Finset.sum_congr rfl fun k _ => ?_
  have hk := ValueIdx.contrEquiv1_symm_val dot_S4x256_S256x16_S4x16_1_0_0_1_n_n 256 rfl rfl k
  have el : dot_S4x256_S256x16_S4x16_1_0_0_1_n_n.lhsIdx (ix2 p q) ((ValueIdx.contrEquiv1 dot_S4x256_S256x16_S4x16_1_0_0_1_n_n 256 rfl rfl).symm k) = ix2 p k := funext fun a => Fin.ext (by
    match a with
    | ⟨0, _⟩ => exact lhs_d1_0 _ _
    | ⟨1, _⟩ => exact (lhs_d1_1 _ _).trans hk)
  have er : dot_S4x256_S256x16_S4x16_1_0_0_1_n_n.rhsIdx (ix2 p q) ((ValueIdx.contrEquiv1 dot_S4x256_S256x16_S4x16_1_0_0_1_n_n 256 rfl rfl).symm k) = ix2 k q := funext fun a => Fin.ext (by
    match a with
    | ⟨0, _⟩ => exact (rhs_d1_0 _ _).trans hk
    | ⟨1, _⟩ => exact rhs_d1_1 _ _)
  rw [el, er]

theorem lhs_d2_0 (i : S4x256.Idx) (q : dot_S4x16_S16x256_S4x256_1_0_0_1_n_n.contr.Idx) :
    (dot_S4x16_S16x256_S4x256_1_0_0_1_n_n.lhsIdx i q 0).val = (i 0).val := by
  unfold DotDims.lhsIdx
  rw [dif_neg (show ¬(0 : Fin S4x16.rank) ∈ dot_S4x16_S16x256_S4x256_1_0_0_1_n_n.lhsBatch by decide), dif_pos (show (0 : Fin S4x16.rank) ∈ dot_S4x16_S16x256_S4x256_1_0_0_1_n_n.lhsNonContracting by decide)]
  rfl
theorem lhs_d2_1 (i : S4x256.Idx) (q : dot_S4x16_S16x256_S4x256_1_0_0_1_n_n.contr.Idx) :
    (dot_S4x16_S16x256_S4x256_1_0_0_1_n_n.lhsIdx i q 1).val = (q ⟨0, by decide⟩).val :=
  dot_S4x16_S16x256_S4x256_1_0_0_1_n_n.lhsIdx_val_of_single rfl i q
theorem rhs_d2_0 (i : S4x256.Idx) (q : dot_S4x16_S16x256_S4x256_1_0_0_1_n_n.contr.Idx) :
    (dot_S4x16_S16x256_S4x256_1_0_0_1_n_n.rhsIdx i q 0).val = (q ⟨0, by decide⟩).val :=
  dot_S4x16_S16x256_S4x256_1_0_0_1_n_n.rhsIdx_val_of_single rfl i q
theorem rhs_d2_1 (i : S4x256.Idx) (q : dot_S4x16_S16x256_S4x256_1_0_0_1_n_n.contr.Idx) :
    (dot_S4x16_S16x256_S4x256_1_0_0_1_n_n.rhsIdx i q 1).val = (i 1).val := by
  unfold DotDims.rhsIdx
  rw [dif_neg (show ¬(1 : Fin S16x256.rank) ∈ dot_S4x16_S16x256_S4x256_1_0_0_1_n_n.rhsBatch by decide), dif_pos (show (1 : Fin S16x256.rank) ∈ dot_S4x16_S16x256_S4x256_1_0_0_1_n_n.rhsNonContracting by decide)]
  rfl

/-- The 4 × 16 by 16 × 256 product into the zero accumulator, entry by entry: the sum over the contracted coordinate. -/
theorem matmul_d2_apply (l : FVec Ideal S4x16 .f32) (r : FVec Ideal S16x256 .f32) (p : Fin 4) (q : Fin 256) :
    matmul dot_S4x16_S16x256_S4x256_1_0_0_1_n_n none l r (constant (F := Ideal) S4x256 .f32 0x00000000#32) (ix2 p q)
      = ∑ k : Fin 16, l (ix2 p k) * r (ix2 k q) := by
  simp only [matmul]
  rw [Ideal.matmul_constant_zero_apply, ← Equiv.sum_comp (ValueIdx.contrEquiv1 dot_S4x16_S16x256_S4x256_1_0_0_1_n_n 16 rfl rfl).symm]
  refine Finset.sum_congr rfl fun k _ => ?_
  have hk := ValueIdx.contrEquiv1_symm_val dot_S4x16_S16x256_S4x256_1_0_0_1_n_n 16 rfl rfl k
  have el : dot_S4x16_S16x256_S4x256_1_0_0_1_n_n.lhsIdx (ix2 p q) ((ValueIdx.contrEquiv1 dot_S4x16_S16x256_S4x256_1_0_0_1_n_n 16 rfl rfl).symm k) = ix2 p k := funext fun a => Fin.ext (by
    match a with
    | ⟨0, _⟩ => exact lhs_d2_0 _ _
    | ⟨1, _⟩ => exact (lhs_d2_1 _ _).trans hk)
  have er : dot_S4x16_S16x256_S4x256_1_0_0_1_n_n.rhsIdx (ix2 p q) ((ValueIdx.contrEquiv1 dot_S4x16_S16x256_S4x256_1_0_0_1_n_n 16 rfl rfl).symm k) = ix2 k q := funext fun a => Fin.ext (by
    match a with
    | ⟨0, _⟩ => exact (rhs_d2_0 _ _).trans hk
    | ⟨1, _⟩ => exact rhs_d2_1 _ _)
  rw [el, er]

/-! ## The stages of the body -/

/-- The logistic function applied lane by lane. -/
theorem logistic_apply {s : Shape} (v : FVec Ideal s .f32) (i : s.Idx) : logistic v i = Ideal.logistic (v i) := rfl

/-- The channel sums over the positions, divided by the broadcast 3136, are the means. -/
theorem pooled_eq (x0 : FVec Ideal S4x256x56x56 .f32) (hφ : FKind.Formats .f32)
    (hacc : (0x00000000#32 : BitVec 32) = 0x00000000#32) (p : Fin 4) (k : Fin 256) :
    divf (multiReduction .add [2, 3] S4x256 x0 0x00000000#32 reduces_S4x256x56x56_S4x256 hφ hacc)
        (broadcast S4x256 (FloatOps.ofBits (F := Ideal) .f32 0x45440000#32)) (ix2 p k)
      = pooled x0 p k := by
  exact congrArg (fun z => Ideal.div z (Ideal.ofBits .f32 0x45440000#32))
    (ReduceLast2.multiReduction_add_apply x0 0x00000000#32 reduces_S4x256x56x56_S4x256 hφ hacc p k)

/-- The gates broadcast over the positions: a `[4, 256]` array viewed `[4, 256, 1, 1]` and broadcast to the block's
    shape reads, at `(p, c, h, w)`, the array at `(p, c)`. -/
theorem bcast_positions (g : FVec Ideal S4x256 .f32) (p : Fin 4) (c : Fin 256) (h w : Fin 56) :
    broadcastTo S4x256x56x56 (shapeCast S4x256x1x1 g shapeCasts_S4x256_S4x256x1x1) broadcasts_S4x256x1x1_S4x256x56x56
        (ix4 p c h w) = g (ix2 p c) := by
  refine (broadcastTo_apply _ broadcasts_S4x256x1x1_S4x256x56x56 (ix4 p c h w) (ix4 p c (0 : Fin 1) (0 : Fin 1)) fun a => ?_).trans ?_
  · match a with
    | ⟨0, _⟩ => show p.val = if (4 : Nat) = 1 then 0 else p.val; rw [if_neg (by decide)]
    | ⟨1, _⟩ => show c.val = if (256 : Nat) = 1 then 0 else c.val; rw [if_neg (by decide)]
    | ⟨2, _⟩ => show 0 = if (1 : Nat) = 1 then 0 else h.val; rw [if_pos rfl]
    | ⟨3, _⟩ => show 0 = if (1 : Nat) = 1 then 0 else w.val; rw [if_pos rfl]
  · refine shapeCast_apply g shapeCasts_S4x256_S4x256x1x1 (ix4 p c (0 : Fin 1) (0 : Fin 1)) (ix2 p c) ?_
    rw [Shape.rowMajor_val_two, Shape.rowMajor_val_four]
    show p.val * 256 + c.val = ((p.val * 256 + c.val) * 1 + 0) * 1 + 0
    omega

/-- The body's first layer, over any `[4, 256]` left operand: the product with the transposed first weights plus the
    broadcast bias row, rectified. -/
theorem layer1_eq (v3 : FVec Ideal S4x256 .f32) (x1 : FVec Ideal S16x256 .f32) (x2 : FVec Ideal S1x16 .f32) (p : Fin 4)
    (j : Fin 16) :
    maximumf (addf (matmul dot_S4x256_S256x16_S4x16_1_0_0_1_n_n none v3 (transpose S256x16 [1, 0] x1 transposes_S16x256_p1_0_S256x16)
          (constant (F := Ideal) S4x16 .f32 0x00000000#32))
        (broadcastTo S4x16 (shapeCast S1x16 x2 shapeCasts_S1x16_S1x16) broadcasts_S1x16_S4x16))
      (broadcast S4x16 (FloatOps.ofBits (F := Ideal) .f32 0x00000000#32)) (ix2 p j)
    = max ((∑ k : Fin 256, v3 (ix2 p k) * x1 (ix2 j k)) + x2 (ix2 (0 : Fin 1) j)) (Ideal.ofBits .f32 0x00000000#32) := by
  rw [maximumf_apply, addf_apply, broadcast_apply, matmul_d1_apply, broadcastTo_1b_ab_apply, shapeCast_self]
  have ht : ∀ k : Fin 256, transpose S256x16 [1, 0] x1 transposes_S16x256_p1_0_S256x16 (ix2 k j) = x1 (ix2 j k) :=
    fun k => transpose_ix2_apply x1 transposes_S16x256_p1_0_S256x16 k j
  simp only [ht]
  rfl

/-- The body's second layer, over any `[4, 16]` left operand: the product with the transposed second weights plus the
    broadcast bias row. -/
theorem layer2_eq (v15 : FVec Ideal S4x16 .f32) (x3 : FVec Ideal S256x16 .f32) (x4 : FVec Ideal S1x256 .f32) (p : Fin 4)
    (c : Fin 256) :
    addf (matmul dot_S4x16_S16x256_S4x256_1_0_0_1_n_n none v15 (transpose S16x256 [1, 0] x3 transposes_S256x16_p1_0_S16x256)
          (constant (F := Ideal) S4x256 .f32 0x00000000#32))
        (broadcastTo S4x256 (shapeCast S1x256 x4 shapeCasts_S1x256_S1x256) broadcasts_S1x256_S4x256) (ix2 p c)
    = (∑ j : Fin 16, v15 (ix2 p j) * x3 (ix2 c j)) + x4 (ix2 (0 : Fin 1) c) := by
  rw [addf_apply, matmul_d2_apply, broadcastTo_1b_ab_apply, shapeCast_self]
  have ht : ∀ j : Fin 16, transpose S16x256 [1, 0] x3 transposes_S256x16_p1_0_S16x256 (ix2 j c) = x3 (ix2 c j) :=
    fun j => transpose_ix2_apply x3 transposes_S256x16_p1_0_S16x256 j c
  simp only [ht]

/-- THE BODY'S STORED VALUE at `(p, c, h, w)`: the rescaled batch of its own four images, the two bias rows read at
    their one row. -/
theorem pay_apply (x0 : FVec Ideal S4x256x56x56 .f32) (x1 : FVec Ideal S16x256 .f32) (x2 : FVec Ideal S1x16 .f32)
    (x3 : FVec Ideal S256x16 .f32) (x4 : FVec Ideal S1x256 .f32) (p : Fin 4) (c : Fin 256) (h w : Fin 56) :
    k0_pay1 (F := Ideal) x0 x1 x2 x3 x4 (ix4 p c h w)
      = rescaled x0 x1 (fun j => x2 (ix2 (0 : Fin 1) j)) x3 (fun c => x4 (ix2 (0 : Fin 1) c)) (ix4 p c h w) := by
  unfold k0_pay1
  dsimp only
  rw [rescaled_apply, mulf_apply, bcast_positions, logistic_apply, layer2_eq]
  unfold gate SqueezeExcite.hidden
  beta_reduce
  refine congrArg (fun z => x0 (ix4 p c h w) * Ideal.logistic (z + x4 (ix2 (0 : Fin 1) c))) ?_
  refine Finset.sum_congr rfl fun j _ => ?_
  refine congrArg (fun z => z * x3 (ix2 c j)) ?_
  refine (layer1_eq _ x1 x2 p j).trans ?_
  refine congrArg (fun z => max (z + x2 (ix2 (0 : Fin 1) j)) (Ideal.ofBits .f32 0x00000000#32)) ?_
  refine Finset.sum_congr rfl fun k _ => ?_
  exact congrArg (fun z => z * x1 (ix2 j k)) (pooled_eq x0 _ _ p k)

/-- THE BODY'S BLOCK IS A BLOCK OF THE WHOLE: when the body's first operand holds images `4 q … 4 q + 3` of a batch `X` of
    sixty-four, its weight operands hold the weights and its two bias rows hold the biases, then the stored value at an
    index `y` of the block is the rescaled batch of all sixty-four images at the index `i` that `y` is in the whole array
    (image `4 q + y₀`, the other three coordinates unchanged): the gate of an image reads that image alone. -/
theorem block_apply (X : FVec Ideal S64x256x56x56 .f32) (W1 : FVec Ideal S16x256 .f32) (B1 : FVec Ideal S16 .f32)
    (W2 : FVec Ideal S256x16 .f32) (B2 : FVec Ideal S256 .f32)
    (x0 : FVec Ideal S4x256x56x56 .f32) (x1 : FVec Ideal S16x256 .f32) (x2 : FVec Ideal S1x16 .f32)
    (x3 : FVec Ideal S256x16 .f32) (x4 : FVec Ideal S1x256 .f32) (q : Nat) (hq : q < 16)
    (h0 : ∀ (p : Fin 4) (k : Fin 256) (h w : Fin 56),
      x0 (ix4 p k h w) = X (ix4 (⟨4 * q + p.val, by have := p.isLt; omega⟩ : Fin 64) k h w))
    (h1 : x1 = W1) (h2 : ∀ j : Fin 16, x2 (ix2 (0 : Fin 1) j) = B1 (ix1 j)) (h3 : x3 = W2)
    (h4 : ∀ c : Fin 256, x4 (ix2 (0 : Fin 1) c) = B2 (ix1 c))
    (y : S4x256x56x56.Idx) (i : S64x256x56x56.Idx) (hi0 : (i 0).val = 4 * q + (y 0).val) (hi1 : (i 1).val = (y 1).val)
    (hi2 : (i 2).val = (y 2).val) (hi3 : (i 3).val = (y 3).val) :
    k0_pay1 (F := Ideal) x0 x1 x2 x3 x4 y = rescaled X W1 (fun j => B1 (ix1 j)) W2 (fun c => B2 (ix1 c)) i := by
  obtain ⟨p, c, h, w, rfl⟩ : ∃ (p : Fin 4) (c : Fin 256) (h w : Fin 56), y = ix4 p c h w :=
    ⟨y 0, y 1, y 2, y 3, eq_ix4 y⟩
  have hi : i = ix4 (⟨4 * q + p.val, by have := p.isLt; omega⟩ : Fin 64) c h w := by
    funext a
    refine Fin.ext ?_
    match a with
    | ⟨0, _⟩ => exact hi0
    | ⟨1, _⟩ => exact hi1
    | ⟨2, _⟩ => exact hi2
    | ⟨3, _⟩ => exact hi3
  subst h1 h3
  rw [hi, pay_apply, rescaled_apply, rescaled_apply, h0]
  have hb1 : (fun j => x2 (ix2 (0 : Fin 1) j)) = fun j => B1 (ix1 j) := funext h2
  have hb2 : (fun c => x4 (ix2 (0 : Fin 1) c)) = fun c => B2 (ix1 c) := funext h4
  rw [hb1, hb2]
  exact congrArg (fun z => X (ix4 (⟨4 * q + p.val, by have := p.isLt; omega⟩ : Fin 64) c h w) * z)
    (gate_congr x0 X x1 _ x3 _ p _ (fun k h w => h0 p k h w) c)

end Cert.KernelIdeal.Payload

end
-- ==== Proof.KernelValue.lean ====
/-
  The kernel's result array after the run is the rescaled batch of Proof/Spec.lean, all sixty-four images.

  The grid has sixteen points; point `t` reads images `4 t … 4 t + 3` of the batch (all channels, all positions), the whole
  of both weight matrices, and the two bias rows as the program's two reshapes leave them (`[16] → [1, 16]`,
  `[256] → [1, 256]`), and writes images `4 t … 4 t + 3` of the result. What it writes is its block of the rescaled batch
  (Proof/KernelPayload.lean: the gate of an image reads that image alone), the sixteen blocks cover the array, so the
  array ends at the rescaled batch.
-/
import proofs.«104781_j37125697306889_1_alg».proof.Proof.Gen.KernelIdeal.Frame
import proofs.«104781_j37125697306889_1_alg».proof.Proof.Gen.KernelIdeal.Value
import proofs.«104781_j37125697306889_1_alg».proof.Proof.KernelPayload
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open scoped BigOperators

namespace Cert.KernelIdeal.BlockValue

open Cert.KernelIdeal Cert.KernelIdeal.Gen Cert.KernelIdeal.Value Idealize.ShloMosaic Idealize.ShloMosaic.TcCoe Idealize.SL.Sem
open Idealize.ShloMosaic.ValueIdx Cert.SqueezeExcite
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The rescaled batch of the five argument arrays as launched. -/
abbrev result (c : Dev nD) : FVec Ideal S64x256x56x56 .f32 :=
  rescaled (m ((c : Thread nD τ).loc main_arg0)) (m ((c : Thread nD τ).loc main_arg1))
    (fun j => (m ((c : Thread nD τ).loc main_arg2) : FVec Ideal S16 .f32) (ix1 j))
    (m ((c : Thread nD τ).loc main_arg3))
    (fun k => (m ((c : Thread nD τ).loc main_arg4) : FVec Ideal S256 .f32) (ix1 k))

/-! ## Where each window's block sits -/

/-- The printed index maps over the sixteen points: the batch and the result move one block of four images per point,
    the weights and the bias rows stay at block `(0, 0)`. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 4) = t.val ∧ win0_5.index t (1 : Fin 4) = 0 ∧ win0_5.index t (2 : Fin 4) = 0 ∧ win0_5.index t (3 : Fin 4) = 0 :=
  (by decide +kernel : ∀ t : Fin grid0.N, _)

/-! ## The two bias rows as the region finds them -/

/-- The first bias as a `[1, 16]` row: the program's reshape of the `[16]` argument. -/
theorem V_bias1 (c : Dev nD) (j : Fin 16) :
    (V m c main_v0 : FVec Ideal S1x16 .f32) (ix2 (0 : Fin 1) j) = (m ((c : Thread nD τ).loc main_arg2) : FVec Ideal S16 .f32) (ix1 j) := by
  have e : (V m c main_v0 : FVec Ideal S1x16 .f32)
      = shapeCast S1x16 (m ((c : Thread nD τ).loc main_arg2) : FVec Ideal S16 .f32) shapeCasts_S16_S1x16 := by
    dsimp only [V, hostOps0]; after_results; rfl
  rw [e]
  exact shapeCast_a_1a_apply _ shapeCasts_S16_S1x16 (0 : Fin 1) j

/-- The second bias as a `[1, 256]` row: the program's reshape of the `[256]` argument. -/
theorem V_bias2 (c : Dev nD) (k : Fin 256) :
    (V m c main_v1 : FVec Ideal S1x256 .f32) (ix2 (0 : Fin 1) k) = (m ((c : Thread nD τ).loc main_arg4) : FVec Ideal S256 .f32) (ix1 k) := by
  have e : (V m c main_v1 : FVec Ideal S1x256 .f32)
      = shapeCast S1x256 (m ((c : Thread nD τ).loc main_arg4) : FVec Ideal S256 .f32) shapeCasts_S256_S1x256 := by
    dsimp only [V, hostOps0]; after_results; rfl
  rw [e]
  exact shapeCast_a_1a_apply _ shapeCasts_S256_S1x256 (0 : Fin 1) k

/-! ## The input blocks at a point -/

/-- The grid has sixteen points. -/
theorem t_lt (t : Fin cfg0.N) : t.val < 16 := Nat.lt_of_lt_of_eq t.isLt (show cfg0.N = 16 from N_0)

/-- The batch's block at point `t` is images `4 t … 4 t + 3`. -/
theorem iblk0_apply (c : Dev nD) (t : Fin cfg0.N) (p : Fin 4) (k : Fin 256) (h w : Fin 56) (hb : 4 * t.val + p.val < 64) :
    (iblk m c 0 t : FVec Ideal S4x256x56x56 .f32) (ix4 p k h w)
      = (m ((c : Thread nD τ).loc main_arg0) : FVec Ideal S64x256x56x56 .f32) (ix4 (⟨4 * t.val + p.val, hb⟩ : Fin 64) k h w) := by
  obtain ⟨e0, e1, e2, e3, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 4) * 4 + 1 * p.val = 4 * t.val + p.val; rw [e0]; omega
  | ⟨1, _⟩ => show win0_0.index t (1 : Fin 4) * 256 + 1 * k.val = k.val; rw [e1]; omega
  | ⟨2, _⟩ => show win0_0.index t (2 : Fin 4) * 56 + 1 * h.val = h.val; rw [e2]; omega
  | ⟨3, _⟩ => show win0_0.index t (3 : Fin 4) * 56 + 1 * w.val = w.val; rw [e3]; omega

/-- The first weight matrix is one block, the same at every point. -/
theorem iblk1_eq (c : Dev nD) (t : Fin cfg0.N) :
    (iblk m c 1 t : FVec Ideal S16x256 .f32) = m ((c : Thread nD τ).loc main_arg1) := by
  obtain ⟨-, -, -, -, e0, e1, -⟩ := idx_facts t
  funext y
  unfold iblk
  rw [View.read_apply]
  show V m c main_arg1 _ = _
  rw [V_main_arg1]
  refine congrArg _ (funext fun a => Fin.ext ?_)
  match a with
  | ⟨0, _⟩ => show win0_1.index t (0 : Fin 2) * 16 + 1 * (y 0).val = (y 0).val; rw [e0]; omega
  | ⟨1, _⟩ => show win0_1.index t (1 : Fin 2) * 256 + 1 * (y 1).val = (y 1).val; rw [e1]; omega

/-- The first bias row is one block, the same at every point, and reads the `[16]` argument. -/
theorem iblk2_apply (c : Dev nD) (t : Fin cfg0.N) (j : Fin 16) :
    (iblk m c 2 t : FVec Ideal S1x16 .f32) (ix2 (0 : Fin 1) j)
      = (m ((c : Thread nD τ).loc main_arg2) : FVec Ideal S16 .f32) (ix1 j) := by
  obtain ⟨-, -, -, -, -, -, e0, e1, -⟩ := idx_facts t
  unfold iblk
  rw [View.read_apply]
  show V m c main_v0 _ = _
  refine Eq.trans (congrArg _ (funext fun a => Fin.ext ?_)) (V_bias1 m c j)
  match a with
  | ⟨0, _⟩ => show win0_2.index t (0 : Fin 2) * 1 + 1 * 0 = 0; rw [e0]
  | ⟨1, _⟩ => show win0_2.index t (1 : Fin 2) * 16 + 1 * j.val = j.val; rw [e1]; omega

/-- The second weight matrix is one block, the same at every point. -/
theorem iblk3_eq (c : Dev nD) (t : Fin cfg0.N) :
    (iblk m c 3 t : FVec Ideal S256x16 .f32) = m ((c : Thread nD τ).loc main_arg3) := by
  obtain ⟨-, -, -, -, -, -, -, -, e0, e1, -⟩ := idx_facts t
  funext y
  unfold iblk
  rw [View.read_apply]
  show V m c main_arg3 _ = _
  rw [V_main_arg3]
  refine congrArg _ (funext fun a => Fin.ext ?_)
  match a with
  | ⟨0, _⟩ => show win0_3.index t (0 : Fin 2) * 256 + 1 * (y 0).val = (y 0).val; rw [e0]; omega
  | ⟨1, _⟩ => show win0_3.index t (1 : Fin 2) * 16 + 1 * (y 1).val = (y 1).val; rw [e1]; omega

/-- The second bias row is one block, the same at every point, and reads the `[256]` argument. -/
theorem iblk4_apply (c : Dev nD) (t : Fin cfg0.N) (j : Fin 256) :
    (iblk m c 4 t : FVec Ideal S1x256 .f32) (ix2 (0 : Fin 1) j)
      = (m ((c : Thread nD τ).loc main_arg4) : FVec Ideal S256 .f32) (ix1 j) := by
  obtain ⟨-, -, -, -, -, -, -, -, -, -, e0, e1, -⟩ := idx_facts t
  unfold iblk
  rw [View.read_apply]
  show V m c main_v1 _ = _
  refine Eq.trans (congrArg _ (funext fun a => Fin.ext ?_)) (V_bias2 m c j)
  match a with
  | ⟨0, _⟩ => show win0_4.index t (0 : Fin 2) * 1 + 1 * 0 = 0; rw [e0]
  | ⟨1, _⟩ => show win0_4.index t (1 : Fin 2) * 256 + 1 * j.val = j.val; rw [e1]; omega

/-! ## What a point writes back, the cover, the array -/

/-- WHAT POINT `t` WRITES BACK is block `t` of the rescaled batch. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz4]
  simp only [View.ld_unit_zero (S := S4x256x56x56) hz4, View.ld_unit_zero (S := S16x256) hz2,
    View.ld_unit_zero (S := S1x16) hz2, View.ld_unit_zero (S := S256x16) hz2, View.ld_unit_zero (S := S1x256) hz2]
  obtain ⟨-, -, -, -, -, -, -, -, -, -, -, -, e0, e1, e2, e3⟩ := idx_facts t
  funext y
  show k0_pay1 (F := Ideal) (iblk m c 0 t) (iblk m c 1 t) (iblk m c 2 t) (iblk m c 3 t) (iblk m c 4 t) y
    = result m c (((cfg0.win 5).blk t).view.emb y)
  refine Payload.block_apply _ _ _ _ _ _ _ _ _ _ t.val (t_lt t)
    (fun p k h w => iblk0_apply m c t p k h w _) (iblk1_eq m c t) (iblk2_apply m c t) (iblk3_eq m c t)
    (iblk4_apply m c t) y _ ?_ ?_ ?_ ?_
  · show win0_5.index t (0 : Fin 4) * 4 + 1 * (y 0).val = 4 * t.val + (y 0).val; rw [e0]; omega
  · show win0_5.index t (1 : Fin 4) * 256 + 1 * (y 1).val = (y 1).val; rw [e1]; omega
  · show win0_5.index t (2 : Fin 4) * 56 + 1 * (y 2).val = (y 2).val; rw [e2]; omega
  · show win0_5.index t (3 : Fin 4) * 56 + 1 * (y 3).val = (y 3).val; rw [e3]; omega

/-- An index of the result is in point `t`'s block iff each coordinate is in the block's range on its axis. -/
theorem mem_blk (t : Fin cfg0.N) (i : S64x256x56x56.Idx) :
    i ∈ ((cfg0.win 5).blk t).view.set ↔ ∀ a : Fin 4, win0_5.index t a * S4x256x56x56.size a ≤ (i a).val
      ∧ (i a).val < win0_5.index t a * S4x256x56x56.size a + S4x256x56x56.size a := by
  show i ∈ ((View.whole main_v2).slice (win0_5.rect t)).set ↔ _
  rw [View.set_slice_whole, Rect.mem_set_unit]
  exact Iff.rfl

/-- Every index of the result is in the block of the point that holds its image: point `i₀ / 4`. -/
theorem cover (i : S64x256x56x56.Idx) :
    ∃ t : Fin cfg0.N, (cfg0.win 5).flush t = true ∧ i ∈ ((cfg0.win 5).blk t).view.set := by
  have h0 : (i 0).val < 64 := (i 0).isLt
  have h1 : (i 1).val < 256 := (i 1).isLt
  have h2 : (i 2).val < 56 := (i 2).isLt
  have h3 : (i 3).val < 56 := (i 3).isLt
  have ht : (i 0).val / 4 < cfg0.N := by rw [show cfg0.N = 16 from N_0]; omega
  obtain ⟨-, -, -, -, -, -, -, -, -, -, -, -, e0, e1, e2, e3⟩ := idx_facts ⟨(i 0).val / 4, ht⟩
  refine ⟨⟨(i 0).val / 4, ht⟩, flush0_5 _, ?_⟩
  rw [mem_blk]
  intro a
  match a with
  | ⟨0, _⟩ =>
    show win0_5.index ⟨(i 0).val / 4, ht⟩ (0 : Fin 4) * 4 ≤ (i 0).val ∧ (i 0).val < win0_5.index ⟨(i 0).val / 4, ht⟩ (0 : Fin 4) * 4 + 4
    rw [e0]; show (i 0).val / 4 * 4 ≤ (i 0).val ∧ (i 0).val < (i 0).val / 4 * 4 + 4; omega
  | ⟨1, _⟩ =>
    show win0_5.index ⟨(i 0).val / 4, ht⟩ (1 : Fin 4) * 256 ≤ (i 1).val ∧ (i 1).val < win0_5.index ⟨(i 0).val / 4, ht⟩ (1 : Fin 4) * 256 + 256
    rw [e1]; omega
  | ⟨2, _⟩ =>
    show win0_5.index ⟨(i 0).val / 4, ht⟩ (2 : Fin 4) * 56 ≤ (i 2).val ∧ (i 2).val < win0_5.index ⟨(i 0).val / 4, ht⟩ (2 : Fin 4) * 56 + 56
    rw [e2]; omega
  | ⟨3, _⟩ =>
    show win0_5.index ⟨(i 0).val / 4, ht⟩ (3 : Fin 4) * 56 ≤ (i 3).val ∧ (i 3).val < win0_5.index ⟨(i 0).val / 4, ht⟩ (3 : Fin 4) * 56 + 56
    rw [e3]; omega

/-- THE RESULT ARRAY after the run is the rescaled batch. -/
theorem final (c : Dev nD) : (dats m 0 c).arrAt 5 cfg0.N = result m c :=
  (dats m 0 c).arrAt_eq_of_cover 5 (result m c) (fun t _ => flushed_eq m c t) cover

/-- The run, read: the result array at the rescaled batch, the five arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.BlockValue

end
-- ==== Proof.RefValue.lean ====
/-
  The reference program's result is the rescaled batch of Proof/Spec.lean.

  The reference sums every channel over its 56 · 56 positions (the host's reduce, from the initial value 0), divides by 3136,
  multiplies by the transposed weights, adds the broadcast biases, rectifies, and spells the logistic function out as
  `1 / (1 + exp (-v))`; read entry by entry these are `pooled`, `hidden` and `gate`, and the last product is `rescaled`.
-/
import proofs.«104781_j37125697306889_1_alg».proof.Proof.Gen.ReferenceIdeal.Read
import proofs.«104781_j37125697306889_1_alg».proof.Proof.Spec
import proofs.«104781_j37125697306889_1_alg».proof.Proof.LibReduceLast2
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.SqueezeExcite

/-- The reference's channel means are `pooled`: the host's sum starts from the word of zero. -/
theorem pooled_eq (x0 : FVec Ideal S64x256x56x56 .f32) (n : Fin 64) (k : Fin 256) :
    val_main_v2 (F := Ideal) x0 (ix2 n k) = pooled x0 n k := by
  rw [val_main_v2_apply, val_main_v1_apply, val_main_cst_0_apply]
  show Ideal.div (Ideal.hostReduceAdd reducesTo_S64x256x56x56_S64x256_d2_3 x0 (Ideal.ofBits .f32 0x00000000#32) (ix2 n k))
    (Ideal.ofBits .f32 0x45440000#32) = _
  rw [ReduceLast2.hostReduceAdd_apply _ (by decide) x0 _ n k, Ideal.ofBits_zero_f32, zero_add]
  rfl

/-! The index functions of the generated readings, in coordinates. -/

theorem lidx_v4 (n : Fin 64) (j : Fin 16) (k : Fin 256) : lidx_main_v4 (ix2 n j) k = ix2 n k :=
  funext fun a => Fin.ext (by match a with | ⟨0, _⟩ => rfl | ⟨1, _⟩ => rfl)
theorem ridx_v4 (n : Fin 64) (j : Fin 16) (k : Fin 256) : ridx_main_v4 (ix2 n j) k = ix2 k j :=
  funext fun a => Fin.ext (by match a with | ⟨0, _⟩ => rfl | ⟨1, _⟩ => rfl)
theorem idx_v3 (k : Fin 256) (j : Fin 16) : idx_main_v3 (ix2 k j) = ix2 j k :=
  funext fun a => Fin.ext (by match a with | ⟨0, _⟩ => rfl | ⟨1, _⟩ => rfl)
theorem idx_v56 (n : Fin 64) (j : Fin 16) : idx_main_v5 (idx_main_v6 (ix2 n j)) = ix1 j :=
  funext fun a => Fin.ext (by match a with | ⟨0, _⟩ => rfl)
theorem lidx_v10 (n : Fin 64) (c : Fin 256) (j : Fin 16) : lidx_main_v10 (ix2 n c) j = ix2 n j :=
  funext fun a => Fin.ext (by match a with | ⟨0, _⟩ => rfl | ⟨1, _⟩ => rfl)
theorem ridx_v10 (n : Fin 64) (c : Fin 256) (j : Fin 16) : ridx_main_v10 (ix2 n c) j = ix2 j c :=
  funext fun a => Fin.ext (by match a with | ⟨0, _⟩ => rfl | ⟨1, _⟩ => rfl)
theorem idx_v9 (j : Fin 16) (c : Fin 256) : idx_main_v9 (ix2 j c) = ix2 c j :=
  funext fun a => Fin.ext (by match a with | ⟨0, _⟩ => rfl | ⟨1, _⟩ => rfl)
theorem idx_v1112 (n : Fin 64) (c : Fin 256) : idx_main_v11 (idx_main_v12 (ix2 n c)) = ix1 c :=
  funext fun a => Fin.ext (by match a with | ⟨0, _⟩ => rfl)
theorem idx_v2021 (n : Fin 64) (c : Fin 256) (h w : Fin 56) : idx_main_v20 (idx_main_v21 (ix4 n c h w)) = ix2 n c :=
  funext fun a => Fin.ext (by match a with | ⟨0, _⟩ => rfl | ⟨1, _⟩ => rfl)

/-- The reference's rectified first layer is `hidden`, the bias read at its one coordinate. -/
theorem hidden_eq (x0 : FVec Ideal S64x256x56x56 .f32) (x1 : FVec Ideal S16x256 .f32) (x2 : FVec Ideal S16 .f32)
    (n : Fin 64) (j : Fin 16) :
    val_main_v8 (F := Ideal) x0 x1 x2 (ix2 n j) = hidden x0 x1 (fun j => x2 (ix1 j)) n j := by
  rw [val_main_v8_apply, val_main_v7_apply, val_main_v4_apply, val_main_v6_apply, val_main_v5_apply,
    val_main_call0_v0_apply, val_main_call0_cst_apply]
  simp only [lidx_v4, ridx_v4, val_main_v3_apply, idx_v3, idx_v56, pooled_eq]
  rfl

/-- The reference's second layer, through `1 / (1 + exp (-v))`, is `gate`: the word `0x3F800000` is one, and the
    quotient spelt out is the logistic function. -/
theorem gate_eq (x0 : FVec Ideal S64x256x56x56 .f32) (x1 : FVec Ideal S16x256 .f32) (x2 : FVec Ideal S16 .f32)
    (x3 : FVec Ideal S256x16 .f32) (x4 : FVec Ideal S256 .f32) (n : Fin 64) (c : Fin 256) :
    val_main_v19 (F := Ideal) x0 x1 x2 x3 x4 (ix2 n c)
      = gate x0 x1 (fun j => x2 (ix1 j)) x3 (fun c => x4 (ix1 c)) n c := by
  rw [val_main_v19_apply, val_main_v18_apply, val_main_cst_2_apply, val_main_v17_apply, val_main_v16_apply,
    val_main_cst_1_apply, val_main_v15_apply, val_main_v14_apply, val_main_v13_apply, val_main_v10_apply,
    val_main_v12_apply, val_main_v11_apply]
  simp only [lidx_v10, ridx_v10, val_main_v9_apply, idx_v9, idx_v1112, hidden_eq, Ideal.hostDivf_def,
    Ideal.hostUnary_exp_def, Ideal.hostNegf_def, Ideal.negf_def, Ideal.addf_def, Ideal.ofBits_def, Ideal.ofBits_one_f32]
  rfl

/-- THE REFERENCE'S RESULT, as the run states it, is the rescaled batch. -/
theorem result_eq (x0 : FVec Ideal S64x256x56x56 .f32) (x1 : FVec Ideal S16x256 .f32) (x2 : FVec Ideal S16 .f32)
    (x3 : FVec Ideal S256x16 .f32) (x4 : FVec Ideal S256 .f32) :
    val_main_v22 (F := Ideal) x0 x1 x2 x3 x4 = rescaled x0 x1 (fun j => x2 (ix1 j)) x3 (fun c => x4 (ix1 c)) := by
  funext i
  obtain ⟨n, c, h, w, rfl⟩ : ∃ (n : Fin 64) (c : Fin 256) (h w : Fin 56), i = ix4 n c h w :=
    ⟨i 0, i 1, i 2, i 3, eq_ix4 i⟩
  rw [val_main_v22_apply, val_main_v21_apply, val_main_v20_apply, idx_v2021, gate_eq, rescaled_apply]
  rfl

end Cert.ReferenceIdeal.RefValue

end
-- ==== Proof.lean ====
/-
  A squeeze-and-excitation block on a batch `x : [64, 256, 56, 56]`: every channel of every image is averaged over its
  56 · 56 positions, the 256 means go through a two-layer gate (`[16, 256]` weights and a bias, rectified; `[256, 16]`
  weights and a bias, through the logistic function), and every channel is scaled by its gate.

  The kernel does this four images at a time, on a grid of sixteen points, with both matrix products on the matrix unit
  into a zero accumulator and the logistic function as one operation; the reference does it for all sixty-four images at
  once, with the host's sum, two `dot_general`s and the logistic function spelt out as `1 / (1 + exp (-v))`. On the
  extended reals both are the one function `rescaled` of Proof/Spec.lean, entry by entry: the same sums of the same
  products, the same literal words, and no law of arithmetic beyond that is used — so the precondition (finite inputs) is
  never opened. The one fact that joins the two tilings is that the gate of an image reads that image alone
  (`gate_congr`), so a block of four images has the gates the whole batch gives those four.

  Proof/LibReduceLast2.lean: a sum over the two trailing axes of a rank-4 array, read in coordinates.
  Proof/RefValue.lean: the reference's result is `rescaled`. Proof/KernelPayload.lean: the kernel body's stored value is
  the block of `rescaled`. Proof/KernelValue.lean: the sixteen blocks cover the result array.
  The three frames are the generated ones (the reference's is its run with the result dropped); the idealization rewrote
  nothing, so `preserves` is `True`.
-/
import proofs.«104781_j37125697306889_1_alg».proof.Defs
import proofs.«104781_j37125697306889_1_alg».proof.Proof.Gen.Kernel
import proofs.«104781_j37125697306889_1_alg».proof.Proof.Gen.Kernel.Skeleton
import proofs.«104781_j37125697306889_1_alg».proof.Proof.Gen.Kernel.Launch
import proofs.«104781_j37125697306889_1_alg».proof.Proof.Gen.Kernel.Points
import proofs.«104781_j37125697306889_1_alg».proof.Proof.Gen.Kernel.Frame
import proofs.«104781_j37125697306889_1_alg».proof.Proof.Gen.KernelIdeal
import proofs.«104781_j37125697306889_1_alg».proof.Proof.Gen.KernelIdeal.Skeleton
import proofs.«104781_j37125697306889_1_alg».proof.Proof.Gen.KernelIdeal.Launch
import proofs.«104781_j37125697306889_1_alg».proof.Proof.Gen.KernelIdeal.Points
import proofs.«104781_j37125697306889_1_alg».proof.Proof.Gen.KernelIdeal.Frame
import proofs.«104781_j37125697306889_1_alg».proof.Proof.Gen.ReferenceIdeal
import proofs.«104781_j37125697306889_1_alg».proof.Proof.Gen.Pre_finite_inputs
import proofs.«104781_j37125697306889_1_alg».proof.Proof.Gen.KernelIdeal.Value
import proofs.«104781_j37125697306889_1_alg».proof.Proof.Gen.ReferenceIdeal.Run
import proofs.«104781_j37125697306889_1_alg».proof.Proof.Gen.ReferenceIdeal.Read
import proofs.«104781_j37125697306889_1_alg».proof.Proof.KernelValue
import proofs.«104781_j37125697306889_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the rescaled batch: the kernel's sixteen
    blocks cover it, and the reference's run is it entry by entry. -/
theorem algebraic : Cert.algebraic_KernelIdeal_ReferenceIdeal := by
  intro m ρ m' ρ' _ hagree
  refine ⟨fun c => Cert.KernelIdeal.BlockValue.result m c, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
